-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 100
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128, .f32⟩
  | .hbm, ⟨61, _⟩ => ⟨S100000x40, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000, .f32⟩
  | .hbm, ⟨80, _⟩ => ⟨S1600000, .f32⟩
  | .hbm, ⟨81, _⟩ => ⟨S1600000x1, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x40, .f32⟩
  | .hbm, ⟨91, _⟩ => ⟨S1600000x40, .f32⟩
  | .hbm, ⟨92, _⟩ => ⟨S1600000x40, .f32⟩
  | .hbm, ⟨93, _⟩ => ⟨S_, .f32⟩
  | .hbm, ⟨94, _⟩ => ⟨S100000x40, .f32⟩
  | .hbm, ⟨95, _⟩ => ⟨S1600000x1, .i32⟩
  | .hbm, ⟨96, _⟩ => ⟨S100000x40, .f32⟩
  | .hbm, ⟨97, _⟩ => ⟨S1x40, .f32⟩
  | .hbm, ⟨98, _⟩ => ⟨S100000x40, .f32⟩
  | .hbm, ⟨99, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 105
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x40, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000, .f32⟩
  | .hbm, ⟨85, _⟩ => ⟨S1600000, .f32⟩
  | .hbm, ⟨86, _⟩ => ⟨S1600000x1, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x40, .f32⟩
  | .hbm, ⟨96, _⟩ => ⟨S1600000x40, .f32⟩
  | .hbm, ⟨97, _⟩ => ⟨S1600000x40, .f32⟩
  | .hbm, ⟨98, _⟩ => ⟨S_, .f32⟩
  | .hbm, ⟨99, _⟩ => ⟨S100000x40, .f32⟩
  | .hbm, ⟨100, _⟩ => ⟨S1600000x1, .i32⟩
  | .hbm, ⟨101, _⟩ => ⟨S100000x40, .f32⟩
  | .hbm, ⟨102, _⟩ => ⟨S1x40, .f32⟩
  | .hbm, ⟨103, _⟩ => ⟨S100000x40, .f32⟩
  | .hbm, ⟨104, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.HostReads.lean ====
/-
  What each buffer holds at the boundaries between @main's host stretches and its two regions, walked back to the
  launch memory.

  @main is: the degree and its inverse square root (two host stretches), the first product (a region), the first
  normalized aggregation and the bias's reshape (a host stretch), the second product (a region), the second normalized
  aggregation and the output bias (a host stretch). No host operation and no region writes an argument array, so at every
  boundary an argument reads as launched. The inverse-square-root degree is written once, before the first region, and
  read by both aggregations. Each host stretch applies the same operations, in the same order, as the reference's @main
  applies between ITS two products; so once the array a stretch reads from the preceding region is known to be the
  reference's product, what the stretch writes is the reference's stage of the same name, a function of the arguments.
  The statements hold for any float values: the host operations are only named here, never evaluated.
-/
import proofs.«131087_j4080218931695_1_alg».proof.Proof.Gen.KernelIdeal.Frame
import proofs.«131087_j4080218931695_1_alg».proof.Proof.ReferenceRead
import Idealize.ShloMosaic.Lib.StableHlo.Run
import Idealize.ShloMosaic.Lib.Pipeline.Value

set_option maxRecDepth 16384

noncomputable section

namespace Cert.GCN.HostReads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry: after the degree and its inverse square root -/

theorem W2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results

theorem W2_arg1 (c : Dev nD) : W2 m ρ c (Proc.devRef .tc main_arg1) = m ((c : Thread nD τ).loc main_arg1) := by
  show StableHlo.after hostOps0_1 (StableHlo.after hostOps0 (W0 m ρ c)) (Proc.devRef .tc main_arg1) = _
  after_results

theorem W2_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results

theorem W2_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results

theorem W2_arg4 (c : Dev nD) : W2 m ρ c (Proc.devRef .tc main_arg4) = m ((c : Thread nD τ).loc main_arg4) := by
  show StableHlo.after hostOps0_1 (StableHlo.after hostOps0 (W0 m ρ c)) (Proc.devRef .tc main_arg4) = _
  after_results

theorem W2_arg5 (c : Dev nD) : W2 m ρ c (Proc.devRef .tc main_arg5) = m ((c : Thread nD τ).loc main_arg5) := by
  show StableHlo.after hostOps0_1 (StableHlo.after hostOps0 (W0 m ρ c)) (Proc.devRef .tc main_arg5) = _
  after_results

theorem W2_arg6 (c : Dev nD) : W2 m ρ c (Proc.devRef .tc main_arg6) = m ((c : Thread nD τ).loc main_arg6) := by
  show StableHlo.after hostOps0_1 (StableHlo.after hostOps0 (W0 m ρ c)) (Proc.devRef .tc main_arg6) = _
  after_results

/-- The inverse square root of the in-degree (zero where the degree is zero), as the reference computes it from the
    destination indices. -/
theorem W2_v9 (c : Dev nD) :
    W2 m ρ c (Proc.devRef .tc main_v9) = Cert.ReferenceIdeal.ReadP.val_main_v9 (F := F) (m ((c : Thread nD τ).loc main_arg2)) := by
  show StableHlo.after hostOps0_1 (StableHlo.after hostOps0 (W0 m ρ c)) (Proc.devRef .tc main_v9) = _
  after_results
  rfl

/-! ## At the first region's exit: everything but its result as entered -/

theorem W3_arg1 (c : Dev nD) : W3 m ρ c (Proc.devRef .tc main_arg1) = m ((c : Thread nD τ).loc main_arg1) :=
  (W3_of_ne m ρ c main_arg1 (by decide)).trans (W2_arg1 m ρ c)

theorem W3_arg2 (c : Dev nD) : W3 m ρ c (Proc.devRef .tc main_arg2) = m ((c : Thread nD τ).loc main_arg2) :=
  (W3_of_ne m ρ c main_arg2 (by decide)).trans (W2_arg2 m ρ c)

theorem W3_arg4 (c : Dev nD) : W3 m ρ c (Proc.devRef .tc main_arg4) = m ((c : Thread nD τ).loc main_arg4) :=
  (W3_of_ne m ρ c main_arg4 (by decide)).trans (W2_arg4 m ρ c)

theorem W3_arg5 (c : Dev nD) : W3 m ρ c (Proc.devRef .tc main_arg5) = m ((c : Thread nD τ).loc main_arg5) :=
  (W3_of_ne m ρ c main_arg5 (by decide)).trans (W2_arg5 m ρ c)

theorem W3_arg6 (c : Dev nD) : W3 m ρ c (Proc.devRef .tc main_arg6) = m ((c : Thread nD τ).loc main_arg6) :=
  (W3_of_ne m ρ c main_arg6 (by decide)).trans (W2_arg6 m ρ c)

theorem W3_v9 (c : Dev nD) :
    W3 m ρ c (Proc.devRef .tc main_v9) = Cert.ReferenceIdeal.ReadP.val_main_v9 (F := F) (m ((c : Thread nD τ).loc main_arg2)) :=
  (W3_of_ne m ρ c main_v9 (by decide)).trans (W2_v9 m ρ c)

/-! ## At the second region's entry: after the first aggregation and the bias's reshape -/

theorem W4_arg1 (c : Dev nD) : W4 m ρ c (Proc.devRef .tc main_arg1) = m ((c : Thread nD τ).loc main_arg1) := by
  show StableHlo.after hostOps1 (W3 m ρ c) (Proc.devRef .tc main_arg1) = _
  after_results
  exact W3_arg1 m ρ c

theorem W4_arg2 (c : Dev nD) : W4 m ρ c (Proc.devRef .tc main_arg2) = m ((c : Thread nD τ).loc main_arg2) := by
  show StableHlo.after hostOps1 (W3 m ρ c) (Proc.devRef .tc main_arg2) = _
  after_results
  exact W3_arg2 m ρ c

theorem W4_arg5 (c : Dev nD) : W4 m ρ c (Proc.devRef .tc main_arg5) = m ((c : Thread nD τ).loc main_arg5) := by
  show StableHlo.after hostOps1 (W3 m ρ c) (Proc.devRef .tc main_arg5) = _
  after_results
  exact W3_arg5 m ρ c

theorem W4_arg6 (c : Dev nD) : W4 m ρ c (Proc.devRef .tc main_arg6) = m ((c : Thread nD τ).loc main_arg6) := by
  show StableHlo.after hostOps1 (W3 m ρ c) (Proc.devRef .tc main_arg6) = _
  after_results
  exact W3_arg6 m ρ c

theorem W4_v9 (c : Dev nD) :
    W4 m ρ c (Proc.devRef .tc main_v9) = Cert.ReferenceIdeal.ReadP.val_main_v9 (F := F) (m ((c : Thread nD τ).loc main_arg2)) := by
  show StableHlo.after hostOps1 (W3 m ρ c) (Proc.devRef .tc main_v9) = _
  after_results
  exact W3_v9 m ρ c

/-- A [128] vector reshaped to a [1, 128] row, read at (0, k), is the vector at k. -/
theorem reshape_row {α : Type} (b : S128.Idx → α) (i : S1x128.Idx) :
    shapeCast S1x128 b shapeCasts_S128_S1x128 i = b (Cert.ReferenceIdeal.ReadP.idx_main_v39 i) :=
  shapeCast_apply b shapeCasts_S128_S1x128 i (Cert.ReferenceIdeal.ReadP.idx_main_v39 i) (by
    rw [Shape.rowMajor_val_one, Shape.rowMajor_val_two]
    have h0 : (i 0).val < 1 := (i 0).isLt
    show (i 1).val = (i 0).val * 128 + (i 1).val
    omega)

/-- The bias as a [1, 128] row: the kernel's program reshapes the [128] vector, the reference broadcasts it along a new
    leading axis of extent one; entry (0, k) of either is entry k of the vector. -/
theorem W4_v39 (c : Dev nD) :
    W4 m ρ c (Proc.devRef .tc main_v39) = Cert.ReferenceIdeal.ReadP.val_main_v39 (F := F) (m ((c : Thread nD τ).loc main_arg4)) := by
  show StableHlo.after hostOps1 (W3 m ρ c) (Proc.devRef .tc main_v39) = _
  after_results
  rw [W3_arg4]
  funext i
  rw [Cert.ReferenceIdeal.ReadP.val_main_v39_apply]
  exact reshape_row (m ((c : Thread nD τ).loc main_arg4)) i

set_option maxHeartbeats 4000000 in
/-- The first normalized aggregation: gather the first product's rows at the source indices, scale each edge by the
    product of its endpoints' inverse-square-root degrees, and add into the destination rows. Given that the first
    region left the reference's first product, this is the reference's stage of the same operations. -/
theorem W4_v38 (c : Dev nD)
    (x0 : (⟨Cert.ReferenceIdeal.S100000x256, .f32⟩ : BufTy).Contents (Elt F))
    (x3 : (⟨Cert.ReferenceIdeal.S256x128, .f32⟩ : BufTy).Contents (Elt F))
    (h10 : W3 m ρ c (Proc.devRef .tc main_v10) = Cert.ReferenceIdeal.ReadP.val_main_v10 (F := F) x0 x3) :
    W4 m ρ c (Proc.devRef .tc main_v38)
      = Cert.ReferenceIdeal.ReadP.val_main_v38 (F := F) x0 (m ((c : Thread nD τ).loc main_arg1)) (m ((c : Thread nD τ).loc main_arg2)) x3 := by
  show StableHlo.after hostOps1 (W3 m ρ c) (Proc.devRef .tc main_v38) = _
  after_results_simp
  rw [h10, W3_arg1, W3_arg2, W3_v9]
  rfl

/-! ## At the second region's exit: everything but its result as entered -/

theorem W5_arg1 (c : Dev nD) : W5 m ρ c (Proc.devRef .tc main_arg1) = m ((c : Thread nD τ).loc main_arg1) :=
  (W5_of_ne m ρ c main_arg1 (by decide)).trans (W4_arg1 m ρ c)

theorem W5_arg2 (c : Dev nD) : W5 m ρ c (Proc.devRef .tc main_arg2) = m ((c : Thread nD τ).loc main_arg2) :=
  (W5_of_ne m ρ c main_arg2 (by decide)).trans (W4_arg2 m ρ c)

theorem W5_arg6 (c : Dev nD) : W5 m ρ c (Proc.devRef .tc main_arg6) = m ((c : Thread nD τ).loc main_arg6) :=
  (W5_of_ne m ρ c main_arg6 (by decide)).trans (W4_arg6 m ρ c)

theorem W5_v9 (c : Dev nD) :
    W5 m ρ c (Proc.devRef .tc main_v9) = Cert.ReferenceIdeal.ReadP.val_main_v9 (F := F) (m ((c : Thread nD τ).loc main_arg2)) :=
  (W5_of_ne m ρ c main_v9 (by decide)).trans (W4_v9 m ρ c)

/-! ## At @main's return -/

set_option maxHeartbeats 4000000 in
/-- The second normalized aggregation and the output bias. Given that the second region left the reference's second
    product, the result buffer holds the reference's result, as a function of the arguments. -/
theorem W6_v71 (c : Dev nD)
    (x0 : (⟨Cert.ReferenceIdeal.S100000x256, .f32⟩ : BufTy).Contents (Elt F))
    (x3 : (⟨Cert.ReferenceIdeal.S256x128, .f32⟩ : BufTy).Contents (Elt F))
    (x4 : (⟨Cert.ReferenceIdeal.S128, .f32⟩ : BufTy).Contents (Elt F))
    (x5 : (⟨Cert.ReferenceIdeal.S128x40, .f32⟩ : BufTy).Contents (Elt F))
    (h40 : W5 m ρ c (Proc.devRef .tc main_v40)
      = Cert.ReferenceIdeal.ReadP.val_main_v43 (F := F) x0 (m ((c : Thread nD τ).loc main_arg1)) (m ((c : Thread nD τ).loc main_arg2)) x3 x4 x5) :
    W6 m ρ c (Proc.devRef .tc main_v71)
      = Cert.ReferenceIdeal.ReadP.val_main_v74 (F := F) x0 (m ((c : Thread nD τ).loc main_arg1)) (m ((c : Thread nD τ).loc main_arg2)) x3 x4 x5 (m ((c : Thread nD τ).loc main_arg6)) := by
  show StableHlo.after hostOps2 (W5 m ρ c) (Proc.devRef .tc main_v71) = _
  after_results_simp
  rw [h40, W5_arg1, W5_arg2, W5_arg6, W5_v9]
  rfl

end Cert.GCN.HostReads

end
-- ==== Proof.BlockProducts.lean ====
/-
  The two kernel bodies' stored values, read at one entry, on the extended reals.

  The first body stores the product of a [5000, 256] block of node features with the [256, 128] weights; the second
  adds the bias row to a [5000, 128] block of aggregated features, clamps below at zero, and multiplies by the
  [128, 40] weights. Both narrow their operands to bf16 before the product and accumulate from zero. On the extended
  reals the narrowing is the identity and the product at (row, column) is the plain finite sum over the contracted
  feature index, so each stored entry is

      first body :  sum over k < 256 of  x[row, k] * w[k, col]
      second body:  sum over k < 128 of  max (a[row, k] + b[0, k]) 0 * v[k, col].

  The contraction index of the product's dimension record is carried to `Fin 256` (`Fin 128`) by the library's
  equivalence for a single contracted axis; the four axis facts of each record say which coordinate of an operand
  index is the row, the column, or the summed feature.
-/
import proofs.«131087_j4080218931695_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.GCN.BlockProducts

open Cert.KernelIdeal Cert.KernelIdeal.Gen
open Idealize.ShloMosaic Idealize.ShloMosaic.TcCoe Idealize.SL.Sem

/-! ## The first body: a [5000, 256] block times the [256, 128] weights -/

theorem lhs0_row (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs0_sum (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs0_sum (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs0_col (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row `j 0` of the block, feature `k`. -/
abbrev xAt (j : S5000x128.Idx) (k : Fin 256) : S5000x256.Idx := fun a => match a with
  | ⟨0, _⟩ => ⟨(j 0).val, (j 0).isLt⟩
  | ⟨1, _⟩ => ⟨k.val, k.isLt⟩
/-- Feature `k`, output column `j 1` of the weights. -/
abbrev wAt (j : S5000x128.Idx) (k : Fin 256) : S256x128.Idx := fun a => match a with
  | ⟨0, _⟩ => ⟨k.val, k.isLt⟩
  | ⟨1, _⟩ => ⟨(j 1).val, (j 1).isLt⟩

/-- On the extended reals the first body's stored value at (row, column) is the plain sum over the 256 features of
    block entry times weight: the narrowing to bf16 is the identity and the accumulator starts at zero. -/
theorem pay0_apply (x : Vec Ideal S5000x256 .f32) (w : Vec Ideal S256x128 .f32) (j : S5000x128.Idx) :
    k0_pay1 (F := Ideal) x w j = ∑ k : Fin 256, x (xAt j k) * w (wAt j k) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = xAt j k := funext fun a => Fin.ext (by
    match a with
    | ⟨0, _⟩ => exact lhs0_row _ _
    | ⟨1, _⟩ => exact (lhs0_sum _ _).trans hk)
  have er : dot_S5000x256_S256x128_S5000x128_1_0_0_1_n_n.rhsIdx j ((ValueIdx.contrEquiv1 dot_S5000x256_S256x128_S5000x128_1_0_0_1_n_n 256 rfl rfl).symm k) = wAt j k := funext fun a => Fin.ext (by
    match a with
    | ⟨0, _⟩ => exact (rhs0_sum _ _).trans hk
    | ⟨1, _⟩ => exact rhs0_col _ _)
  rw [el, er]
  rfl

/-! ## The second body: bias, clamp at zero, then a [5000, 128] block times the [128, 40] weights -/

theorem lhs1_row (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs1_sum (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
theorem rhs1_sum (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
theorem rhs1_col (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Row `j 0` of the block, hidden feature `k`. -/
abbrev hAt (j : S5000x40.Idx) (k : Fin 128) : S5000x128.Idx := fun a => match a with
  | ⟨0, _⟩ => ⟨(j 0).val, (j 0).isLt⟩
  | ⟨1, _⟩ => ⟨k.val, k.isLt⟩
/-- The bias row's entry for hidden feature `k`. -/
abbrev bAt (k : Fin 128) : S1x128.Idx := fun a => match a with
  | ⟨0, _⟩ => ⟨0, Nat.one_pos⟩
  | ⟨1, _⟩ => ⟨k.val, k.isLt⟩
/-- Hidden feature `k`, output column `j 1` of the weights. -/
abbrev vAt (j : S5000x40.Idx) (k : Fin 128) : S128x40.Idx := fun a => match a with
  | ⟨0, _⟩ => ⟨k.val, k.isLt⟩
  | ⟨1, _⟩ => ⟨(j 1).val, (j 1).isLt⟩

/-- On the extended reals the second body's stored value at (row, column) is the sum over the 128 hidden features of
    the clamped biased entry times weight; the two shape casts are between equal shapes and the broadcast repeats the
    bias row down the block's rows. -/
theorem pay1_apply (a : Vec Ideal S5000x128 .f32) (b : Vec Ideal S1x128 .f32) (v : Vec Ideal S128x40 .f32) (j : S5000x40.Idx) :
    k1_pay1 (F := Ideal) a b v j
      = ∑ k : Fin 128, FloatOps.maximumf (FloatOps.addf (a (hAt j k)) (b (bAt k))) (FloatOps.ofBits (F := Ideal) .f32 0x00000000#32) * v (vAt j k) := by
  unfold k1_pay1
  simp only [matmul]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx j ((ValueIdx.contrEquiv1 dot_S5000x128_S128x40_S5000x40_1_0_0_1_n_n 128 rfl rfl).symm k) = hAt j k := funext fun a => Fin.ext (by
    match a with
    | ⟨0, _⟩ => exact lhs1_row _ _
    | ⟨1, _⟩ => exact (lhs1_sum _ _).trans hk)
  have er : dot_S5000x128_S128x40_S5000x40_1_0_0_1_n_n.rhsIdx j ((ValueIdx.contrEquiv1 dot_S5000x128_S128x40_S5000x40_1_0_0_1_n_n 128 rfl rfl).symm k) = vAt j k := funext fun a => Fin.ext (by
    match a with
    | ⟨0, _⟩ => exact (rhs1_sum _ _).trans hk
    | ⟨1, _⟩ => exact rhs1_col _ _)
  rw [el, er]
  rw [shapeCast_self, shapeCast_self]
  have hb : broadcastTo S5000x128 b broadcasts_S1x128_S5000x128 (hAt j k) = b (bAt k) :=
    broadcastTo_apply b broadcasts_S1x128_S5000x128 (hAt j k) (bAt k) (fun a => match a with
      | ⟨0, _⟩ => by show 0 = if (1 : Nat) = 1 then 0 else (j 0).val; rw [if_pos rfl]
      | ⟨1, _⟩ => by show k.val = if (128 : Nat) = 1 then 0 else k.val; rw [if_neg (by decide)])
  show FloatOps.maximumf (FloatOps.addf (a (hAt j k)) (broadcastTo S5000x128 b broadcasts_S1x128_S5000x128 (hAt j k)))
      (FloatOps.ofBits (F := Ideal) .f32 0x00000000#32) * v (vAt j k) = _
  rw [hb]

end Cert.GCN.BlockProducts

end
-- ==== Proof.Dense1.lean ====
/-
  The first pallas_call, as one array.

  Its grid has 20 points; point t reads rows 5000 t … 5000 t + 4999 of the node features (all 256 columns) and the whole
  [256, 128] weight matrix, and writes rows 5000 t … 5000 t + 4999 of the [100000, 128] result. What point t writes at
  (y, c) is the sum over k of features[5000 t + y, k] * weights[k, c] (the body's stored value, read at an entry), and
  that is the entry (5000 t + y, c) of the whole product features · weights as the reference's `dot_general` computes
  it on the extended reals. The 20 row blocks tile the result, so after the region the result array IS that product.
-/
import proofs.«131087_j4080218931695_1_alg».proof.Proof.Gen.KernelIdeal.Frame
import proofs.«131087_j4080218931695_1_alg».proof.Proof.ReferenceRead
import proofs.«131087_j4080218931695_1_alg».proof.Proof.BlockProducts
import Idealize.ShloMosaic.Lib.Pipeline.Value
import Idealize.ShloMosaic.Lib.ValueIdx
import Idealize.ShloMosaic.PureOps.Ideal.Laws

set_option maxRecDepth 16384

noncomputable section

namespace Cert.GCN.Dense1

open Cert.KernelIdeal Cert.KernelIdeal.Gen
open Idealize.ShloMosaic Idealize.ShloMosaic.TcCoe Idealize.SL.Sem
open Cert.GCN.BlockProducts

-- the buffer contents the region is entered from: a parameter, as in the generated frame
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the features' and the result's block row is the point, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row 0 … 19 of the result is some point's. -/
theorem idx_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- What point `t` writes back is block `t` of the product of the two argument arrays as the region finds them. -/
theorem flushed_eq (c : Dev nD) (t : Fin cfg0.N) :
    (dat0 V c).flushed 2 t = ((cfg0.win 2).blk t).view.read (Elt Ideal)
      (Cert.ReferenceIdeal.ReadP.val_main_v10 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (F := Ideal) (iblk0 V c 0 t) (iblk0 V c 1 t) j
    = Cert.ReferenceIdeal.ReadP.val_main_v10 (F := Ideal) (V c main_arg0) (V c main_arg3) (((cfg0.win 2).blk t).view.emb j)
  refine (pay0_apply (iblk0 V c 0 t) (iblk0 V c 1 t) j).trans ?_
  refine Eq.trans ?_ (Cert.ReferenceIdeal.ReadP.val_main_v10_apply (V c main_arg0) (V c main_arg3) (((cfg0.win 2).blk t).view.emb j)).symm
  refine Finset.sum_congr rfl fun k _ => ?_
  have h0 : iblk0 V c 0 t (xAt j k) = V c main_arg0 (Cert.ReferenceIdeal.ReadP.lidx_main_v10 (((cfg0.win 2).blk t).view.emb j) k) := by
    show V c main_arg0 (((cfg0.win 0).blk t).view.emb (xAt j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (wAt j k) = V c main_arg3 (Cert.ReferenceIdeal.ReadP.ridx_main_v10 (((cfg0.win 2).blk t).view.emb j) k) := by
    show V c main_arg3 (((cfg0.win 1).blk t).view.emb (wAt j k)) = _
    refine congrArg (V c main_arg3) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- The 20 row blocks cover the result: row r is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := idx_onto ⟨(i 0).val / 5000, by omega⟩
  have q0' : win0_2.index t (0 : Fin 2) = (i 0).val / 5000 := q0
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region its result array is the whole product of the features and the first weights. -/
theorem final (c : Dev nD) :
    (dat0 V c).arrAt 2 cfg0.N = Cert.ReferenceIdeal.ReadP.val_main_v10 (F := Ideal) (V c main_arg0) (V c main_arg3) :=
  (dat0 V c).arrAt_eq_of_cover 2 _ (fun t _ => flushed_eq V c t) cover

end Cert.GCN.Dense1

end
-- ==== Proof.Dense2.lean ====
/-
  The second pallas_call, as one array.

  Its grid has 20 points; point t reads rows 5000 t … 5000 t + 4999 of the aggregated hidden features, the whole
  [1, 128] bias row and the whole [128, 40] weight matrix, and writes rows 5000 t … 5000 t + 4999 of the
  [100000, 40] result. What point t writes at (y, c) is the sum over k of
  max (agg[5000 t + y, k] + bias[0, k]) 0 * weights[k, c], and that is the entry (5000 t + y, c) of
  relu (agg + bias) · weights as the reference computes it on the extended reals: its bias is broadcast down the rows,
  its clamp is the maximum with a zero array, its product the `dot_general` read as a sum. The 20 row blocks tile the
  result, so after the region the result array IS that product. What the three input arrays hold when the region is
  entered is a hypothesis here; the host stretch before the region supplies it.
-/
import proofs.«131087_j4080218931695_1_alg».proof.Proof.Gen.KernelIdeal.Frame
import proofs.«131087_j4080218931695_1_alg».proof.Proof.ReferenceRead
import proofs.«131087_j4080218931695_1_alg».proof.Proof.BlockProducts
import Idealize.ShloMosaic.Lib.Pipeline.Value
import Idealize.ShloMosaic.Lib.ValueIdx
import Idealize.ShloMosaic.PureOps.Ideal.Laws

set_option maxRecDepth 16384

noncomputable section

namespace Cert.GCN.Dense2

open Cert.KernelIdeal Cert.KernelIdeal.Gen
open Idealize.ShloMosaic Idealize.ShloMosaic.TcCoe Idealize.SL.Sem
open Cert.GCN.BlockProducts

-- the buffer contents the region is entered from: a parameter, as in the generated frame
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the hidden features' and the result's block row is the point,
    every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row 0 … 19 of the result is some point's. -/
theorem idx_onto : ∀ q : Fin 20, ∃ t : Fin cfg1.N, win1_3.index t (0 : Fin 2) = q.val ∧ win1_3.index t (1 : Fin 2) = 0 :=
  (by decide +kernel : ∀ q : Fin 20, ∃ t : Fin grid1.N, win1_3.index t (0 : Fin 2) = q.val ∧ win1_3.index t (1 : Fin 2) = 0)

/-- One entry: if a block's rows are the aggregated features at row `i 0`, its bias row the reference's [1, 128] bias
    and its weights the reference's, the body's stored value at `j` is the reference's second product at `i`. -/
theorem entry_eq (a : Vec Ideal S5000x128 .f32) (b : Vec Ideal S1x128 .f32) (v : Vec Ideal S128x40 .f32)
    (x0 : (⟨Cert.ReferenceIdeal.S100000x256, .f32⟩ : BufTy).Contents (Elt Ideal))
    (x1 x2 : (⟨Cert.ReferenceIdeal.S1600000, .i32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x40, .f32⟩ : BufTy).Contents (Elt Ideal))
    (i : Cert.ReferenceIdeal.S100000x40.Idx) (j : S5000x40.Idx)
    (ha : ∀ k : Fin 128, a (hAt j k) = Cert.ReferenceIdeal.ReadP.val_main_v38 (F := Ideal) x0 x1 x2 x3 (Cert.ReferenceIdeal.ReadP.lidx_main_v43 i k))
    (hb : ∀ k : Fin 128, b (bAt k) = Cert.ReferenceIdeal.ReadP.val_main_v39 (F := Ideal) x4 (Cert.ReferenceIdeal.ReadP.idx_main_v40 (Cert.ReferenceIdeal.ReadP.lidx_main_v43 i k)))
    (hv : ∀ k : Fin 128, v (vAt j k) = x5 (Cert.ReferenceIdeal.ReadP.ridx_main_v43 i k)) :
    k1_pay1 (F := Ideal) a b v j = Cert.ReferenceIdeal.ReadP.val_main_v43 (F := Ideal) x0 x1 x2 x3 x4 x5 i := by
  rw [pay1_apply, Cert.ReferenceIdeal.ReadP.val_main_v43_apply]
  refine Finset.sum_congr rfl fun k _ => ?_
  rw [Cert.ReferenceIdeal.ReadP.val_main_v42_apply, Cert.ReferenceIdeal.ReadP.val_main_v41_apply, Cert.ReferenceIdeal.ReadP.val_main_v40_apply, Cert.ReferenceIdeal.ReadP.val_main_call1_v0_apply,
    Cert.ReferenceIdeal.ReadP.val_main_call1_cst_apply, ha k, hb k, hv k]

/-- A block of the result window read at `j` is the array at the block's embedding of `j` (for any array). -/
theorem read_out (G : (⟨Cert.ReferenceIdeal.S100000x40, .f32⟩ : BufTy).Contents (Elt Ideal)) (t : Fin cfg1.N)
    (j : ((cfg1.win 3).xblock (grid1.coords t)).Idx) :
    ((cfg1.win 3).blk t).view.read (Elt Ideal) G j = G (((cfg1.win 3).blk t).view.emb j) := rfl

/-- The three input windows' blocks at a point, read at an entry, are the region-entry arrays at the embedded index. -/
theorem in0_apply (c : Dev nD) (t : Fin cfg1.N) (y : S5000x128.Idx) :
    iblk1 V c 0 t y = V c main_v38 (((cfg1.win 0).blk t).view.emb y) := rfl
theorem in1_apply (c : Dev nD) (t : Fin cfg1.N) (y : S1x128.Idx) :
    iblk1 V c 1 t y = V c main_v39 (((cfg1.win 1).blk t).view.emb y) := rfl
theorem in2_apply (c : Dev nD) (t : Fin cfg1.N) (y : S128x40.Idx) :
    iblk1 V c 2 t y = V c main_arg5 (((cfg1.win 2).blk t).view.emb y) := rfl

/-- What point `t` writes back is block `t` of relu (agg + bias) · weights. -/
theorem flushed_eq (c : Dev nD)
    (x0 : (⟨Cert.ReferenceIdeal.S100000x256, .f32⟩ : BufTy).Contents (Elt Ideal))
    (x1 x2 : (⟨Cert.ReferenceIdeal.S1600000, .i32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x40, .f32⟩ : BufTy).Contents (Elt Ideal))
    (h38 : V c main_v38 = Cert.ReferenceIdeal.ReadP.val_main_v38 (F := Ideal) x0 x1 x2 x3)
    (h39 : V c main_v39 = Cert.ReferenceIdeal.ReadP.val_main_v39 (F := Ideal) x4)
    (h5 : V c main_arg5 = x5) (t : Fin cfg1.N) :
    (dat1 V c).flushed 3 t = ((cfg1.win 3).blk t).view.read (Elt Ideal)
      (Cert.ReferenceIdeal.ReadP.val_main_v43 (F := Ideal) x0 x1 x2 x3 x4 x5) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x40) hz]
  obtain ⟨e0, e1, e2, e3, e4, e5, e6, e7⟩ := idx_facts t
  funext j
  refine Eq.trans ?_ (read_out (Cert.ReferenceIdeal.ReadP.val_main_v43 (F := Ideal) x0 x1 x2 x3 x4 x5) t j).symm
  refine entry_eq (iblk1 V c 0 t) (iblk1 V c 1 t) (iblk1 V c 2 t) x0 x1 x2 x3 x4 x5 (((cfg1.win 3).blk t).view.emb j)
    ((cfg1.win 3).xinj (grid1.coords t) j) ?_ ?_ ?_
  · intro k
    rw [in0_apply, h38]
    refine congrArg (Cert.ReferenceIdeal.ReadP.val_main_v38 (F := Ideal) x0 x1 x2 x3) ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · intro k
    rw [in1_apply, h39]
    refine congrArg (Cert.ReferenceIdeal.ReadP.val_main_v39 (F := Ideal) x4) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · intro k
    rw [in2_apply, h5]
    refine congrArg x5 ?_
    funext a; apply Fin.ext
    match a with
    | ⟨0, _⟩ => show win1_2.index t (0 : Fin 2) * 128 + 1 * k.val = k.val; omega
    | ⟨1, _⟩ => show win1_2.index t (1 : Fin 2) * 40 + 1 * (j 1).val = win1_3.index t (1 : Fin 2) * 40 + 1 * (j 1).val; omega

/-- An index of the result is in point `t`'s block iff each coordinate is in the block's range on its axis. -/
theorem mem_blk (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v40).slice (win1_3.rect t)).set ↔ _
  rw [View.set_slice_whole, Rect.mem_set_unit]
  exact Iff.rfl

/-- The 20 row blocks cover the result: row r is in the block of point r / 5000. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, q0, q1⟩ := idx_onto ⟨(i 0).val / 5000, by omega⟩
  have q0' : win1_3.index t (0 : Fin 2) = (i 0).val / 5000 := q0
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- After the second region its result array is relu (agg + bias) · weights, the reference's second product. -/
theorem final (c : Dev nD)
    (x0 : (⟨Cert.ReferenceIdeal.S100000x256, .f32⟩ : BufTy).Contents (Elt Ideal))
    (x1 x2 : (⟨Cert.ReferenceIdeal.S1600000, .i32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x40, .f32⟩ : BufTy).Contents (Elt Ideal))
    (h38 : V c main_v38 = Cert.ReferenceIdeal.ReadP.val_main_v38 (F := Ideal) x0 x1 x2 x3)
    (h39 : V c main_v39 = Cert.ReferenceIdeal.ReadP.val_main_v39 (F := Ideal) x4)
    (h5 : V c main_arg5 = x5) :
    (dat1 V c).arrAt 3 cfg1.N = Cert.ReferenceIdeal.ReadP.val_main_v43 (F := Ideal) x0 x1 x2 x3 x4 x5 :=
  (dat1 V c).arrAt_eq_of_cover 3 _ (fun t _ => flushed_eq V c x0 x1 x2 x3 x4 x5 h38 h39 h5 t) cover

end Cert.GCN.Dense2

end
-- ==== Proof.KernelValue.lean ====
/-
  The idealized kernel's result, as a function of its arguments.

  On the extended reals the first region leaves the product features · W1 (the block products tile it), the host
  stretch after it the first normalized aggregation of that product, the second region the product
  relu (aggregate + b1) · W2, and the last host stretch its normalized aggregation plus b2. Each of these is the
  reference's stage of the same name applied to the same arguments, so the result buffer at @main's return holds the
  reference's result term, and the kernel's run is re-posted with it.
-/
import proofs.«131087_j4080218931695_1_alg».proof.Proof.KernelIdealRun
import proofs.«131087_j4080218931695_1_alg».proof.Proof.HostReads
import proofs.«131087_j4080218931695_1_alg».proof.Proof.Dense1
import proofs.«131087_j4080218931695_1_alg».proof.Proof.Dense2

set_option maxRecDepth 16384

noncomputable section

namespace Cert.GCN.KernelValue

open Cert.KernelIdeal Cert.KernelIdeal.Gen
open Idealize.ShloMosaic Idealize.ShloMosaic.TcCoe Idealize.SL.Sem
open Cert.GCN.HostReads

variable (m : (ℓ : Loc nD τ sig) → Buf (Elt Ideal) ℓ) (ρ : Dev nD → PrngReg)

/-- After the first region its result buffer holds features · W1. -/
theorem W3_v10 (c : Dev nD) :
    W3 m ρ c (Proc.devRef .tc main_v10) = Cert.ReferenceIdeal.ReadP.val_main_v10 (F := Ideal) (m ((c : Thread nD τ).loc main_arg0)) (m ((c : Thread nD τ).loc main_arg3)) := by
  refine (W3_arr m ρ c 2).trans ?_
  refine (Cert.GCN.Dense1.final (V2 m ρ) c).trans ?_
  rw [show V2 m ρ c main_arg0 = m ((c : Thread nD τ).loc main_arg0) from W2_arg0 m ρ c,
    show V2 m ρ c main_arg3 = m ((c : Thread nD τ).loc main_arg3) from W2_arg3 m ρ c]

/-- After the second region its result buffer holds relu (aggregate + b1) · W2. -/
theorem W5_v40 (c : Dev nD) :
    W5 m ρ c (Proc.devRef .tc main_v40)
      = Cert.ReferenceIdeal.ReadP.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_arr m ρ c 3).trans (Cert.GCN.Dense2.final (V4 m ρ) c
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (W4_v38 m ρ c (m ((c : Thread nD τ).loc main_arg0)) (m ((c : Thread nD τ).loc main_arg3)) (W3_v10 m ρ c)) (W4_v39 m ρ c) (W4_arg5 m ρ c))

/-- At @main's return the result buffer holds the reference's result term of the kernel's arguments. -/
theorem out_eq (c : Dev nD) :
    W6 m ρ c (Proc.devRef .tc main_v71)
      = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  W6_v71 m ρ c (m ((c : Thread nD τ).loc main_arg0)) (m ((c : Thread nD τ).loc main_arg3)) (m ((c : Thread nD τ).loc main_arg4)) (m ((c : Thread nD τ).loc main_arg5)) (W5_v40 m ρ c)

/-- The idealized kernel runs: every weakly fair execution terminates without a fault, the result is the reference's
    result term of the arguments, and the arguments end as launched. -/
theorem run : θ_run defs (onTc (τ := τ) (main (F := Ideal))) ⟨m, fun _ => 0, ρ⟩ (fun r => ∀ c : Dev nD,
      r.2.mem ((c.tc : Thread nD τ).loc main_v71)
        = Cert.ReferenceIdeal.ReadP.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (out_eq m ρ c), (h c).2⟩)
    (Cert.KernelIdeal.RunOut.run_out (F := Ideal) m ρ)

end Cert.GCN.KernelValue

end
-- ==== Proof.lean ====
/-
  Two-layer graph convolution: a kernel with two dense Pallas products against a plain jnp reference, over the
  extended reals.

  Both programs compute, for node features x, edges (src, dst), weights W1, W2 and biases b1, b2:

      deg = number of edges into each node;  s = 1/sqrt(max(deg, 1)) where deg > 0, else 0
      agg(h)[n] = sum over edges e with dst e = n of  h[src e] * (s[src e] * s[dst e])
      out = agg( relu( agg(x · W1) + b1 ) · W2 ) + b2.

  The degree, the gathers, the per-edge scaling, the scatter-adds and the two bias additions are host operations, the
  same ones in the same order in both programs; they are carried as the reference's named stages and never opened. The
  programs differ only in how the two products are made: the reference by one `dot_general` each, the kernel by a
  pallas_call each, 20 row blocks of 5000 rows, the operands narrowed to bf16 and the block product accumulated from
  zero (the second with the bias addition and the clamp at zero fused in front). On the extended reals narrowing is the
  identity and both products are the same finite sum over the contracted feature, entry by entry, so no law beyond
  reading the sums is needed and the finiteness of the inputs is never used.

  The three frames: the kernel's two are the generated frame certificates; the reference's is its run with the result
  dropped. The idealization rewrote no operation, so `preserves` asks nothing.
-/
import proofs.«131087_j4080218931695_1_alg».proof.Defs
import proofs.«131087_j4080218931695_1_alg».proof.Proof.Gen.Kernel
import proofs.«131087_j4080218931695_1_alg».proof.Proof.Gen.Kernel.Frame
import proofs.«131087_j4080218931695_1_alg».proof.Proof.Gen.KernelIdeal
import proofs.«131087_j4080218931695_1_alg».proof.Proof.Gen.KernelIdeal.Frame
import proofs.«131087_j4080218931695_1_alg».proof.Proof.Gen.ReferenceIdeal
import proofs.«131087_j4080218931695_1_alg».proof.Proof.Gen.Pre_finite_inputs
import proofs.«131087_j4080218931695_1_alg».proof.Proof.ReferenceRead
import proofs.«131087_j4080218931695_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the reference's result term of their (agreeing) arguments. -/
theorem algebraic : Cert.algebraic_KernelIdeal_ReferenceIdeal := by
  intro m ρ m' ρ' _ hagree
  refine ⟨_, Cert.GCN.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v74_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
